-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S4096x2048 : Shape := ⟨2, ![4096, 2048]⟩
abbrev S4096 : Shape := ⟨1, ![4096]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S16384x2048 .f32) (main_arg1 : FVec F S4096x2048 .f32) (main_arg2 : FVec F S4096 .f32) (main_arg3 : FVec F S4096 .f32) (main_arg4 : FVec F S4096 .f32) (main_arg5 : FVec F S4096 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16384x2048 : Shape := ⟨2, ![16384, 2048]⟩
abbrev S4096x2048 : Shape := ⟨2, ![4096, 2048]⟩
abbrev S4096 : Shape := ⟨1, ![4096]⟩
abbrev S1x4096 : Shape := ⟨2, ![1, 4096]⟩
abbrev S16384x4096 : Shape := ⟨2, ![16384, 4096]⟩
abbrev S256x2048 : Shape := ⟨2, ![256, 2048]⟩
abbrev S1024x2048 : Shape := ⟨2, ![1024, 2048]⟩
abbrev S1x1024 : Shape := ⟨2, ![1, 1024]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩

abbrev nBuf : Space → Nat
  | .hbm => 11
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S16384x4096, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S256x8x128 : S256x1024.ShapeCasts S256x8x128
  reduces_S256x8x128_S256x8 : S256x8x128.Reduces [2] S256x8
  shapeCasts_S256x8_S256x8x1 : S256x8.ShapeCasts S256x8x1
  broadcasts_S256x8x1_S256x8x128 : S256x8x1.Broadcasts S256x8x128
  shapeCasts_S256x8x128_S256x1024 : S256x8x128.ShapeCasts S256x1024
  inb_S256x1024_S256x1024_0_0 : ∀ a, (![0, 0] : Fin 2 → Nat) a + S256x1024.size a ≤ S256x1024.size a
  h_S256x1024 : 0 < S256x1024.numel
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .f32 = 32 ∨ (Rect.block (s := S4096x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x4096.size a
  hwx0_6 : ∀ i : grid0.Coords, EltTy.bits .f32 = 32 ∨ (Rect.block (s := S16384x4096) S256x1024.size (cc0_transform_6 i) (hinb0_6 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S2048x4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x32x128, .f32⟩
  | .hbm, ⟨12, _⟩ => ⟨S_, .f32⟩
  | .hbm, ⟨13, _⟩ => ⟨S16384x32, .f32⟩
  | .hbm, ⟨14, _⟩ => ⟨S16384x32x1, .f32⟩
  | .hbm, ⟨15, _⟩ => ⟨S_, .f32⟩
  | .hbm, ⟨16, _⟩ => ⟨S16384x32x1, .f32⟩
  | .hbm, ⟨17, _⟩ => ⟨S16384x32x1, .f32⟩
  | .hbm, ⟨18, _⟩ => ⟨S16384x32x128, .f32⟩
  | .hbm, ⟨19, _⟩ => ⟨S16384x32x128, .f32⟩
  | .hbm, ⟨20, _⟩ => ⟨S16384x32x128, .f32⟩
  | .hbm, ⟨21, _⟩ => ⟨S_, .f32⟩
  | .hbm, ⟨22, _⟩ => ⟨S16384x32, .f32⟩
  | .hbm, ⟨23, _⟩ => ⟨S16384x32x1, .f32⟩
  | .hbm, ⟨24, _⟩ => ⟨S_, .f32⟩
  | .hbm, ⟨25, _⟩ => ⟨S16384x32x1, .f32⟩
  | .hbm, ⟨26, _⟩ => ⟨S16384x32x1, .f32⟩
  | .hbm, ⟨27, _⟩ => ⟨S16384x32x128, .f32⟩
  | .hbm, ⟨28, _⟩ => ⟨S16384x32x128, .f32⟩
  | .hbm, ⟨29, _⟩ => ⟨S_, .f32⟩
  | .hbm, ⟨30, _⟩ => ⟨S16384x32x1, .f32⟩
  | .hbm, ⟨31, _⟩ => ⟨S16384x32x1, .f32⟩
  | .hbm, ⟨32, _⟩ => ⟨S16384x32x1, .f32⟩
  | .hbm, ⟨33, _⟩ => ⟨S16384x32x128, .f32⟩
  | .hbm, ⟨34, _⟩ => ⟨S16384x32x128, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S1x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S1x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384x4096, .f32⟩
  | .hbm, ⟨58, _⟩ => ⟨S16384x4096, .f32⟩
  | .hbm, ⟨59, _⟩ => ⟨S_, .f32⟩
  | .hbm, ⟨60, _⟩ => ⟨S16384x4096, .f32⟩
  | .hbm, ⟨61, _⟩ => ⟨S16384x4096, .f32⟩
  | .hbm, ⟨62, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S16384x32x128 : S16384x4096.ShapeCasts S16384x32x128
  reducesTo_S16384x32x128_S16384x32_d2 : S16384x32x128.ReducesTo [2] S16384x32
  h_S_ : 0 < S_.numel
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S16384x32x1_S16384x32x128_0_1_2 : S16384x32x1.BroadcastsInDim S16384x32x128 (![0, 1, 2] : Fin 3 → Fin S16384x32x128.rank)
  shapeCasts_S16384x32x128_S16384x4096 : S16384x32x128.ShapeCasts S16384x4096
  bcast_S_S16384x4096 : S_.BroadcastsInDim S16384x4096 (![] : Fin 0 → Fin S16384x4096.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.GroupNormSwish.lean ====
/-
  The function both programs compute, entry by entry, on the extended reals.

  A row of the linear layer's output, y(r, ·) = x(r, ·) · W(·, ·)ᵀ + b, is cut into groups of 128 consecutive
  channels.  Each group is normalised by its own mean and variance: with g the group's 128 entries,
      mean g = (Σ_l g l) / 128,   var g = (Σ_l (g l − mean g)²) / 128,
      normed g l = (g l − mean g) · rsqrt (var g + ε).
  The normalised entry is scaled and shifted per channel, passed through x ↦ x · σ(x) (σ the logistic
  function), multiplied by a per-channel weight, and passed through x ↦ x · σ(x) once more.

  The channel q lies in the group of the channels q / 128 · 128 + l, l < 128, at lane q % 128.  Both 4096 and
  1024 are multiples of 128, so a block of 1024 consecutive channels starting at a multiple of 1024 holds whole
  groups, and a channel's group inside the block is its group in the row.

  The two constants 128 and ε are kept as the 32-bit patterns both programs print; their values never matter.
-/
import Idealize.ShloMosaic.PureOps.Ideal
import Idealize.ShloMosaic.Lib.IdealHost
import Idealize.ShloMosaic.Lib.ValueIdx

noncomputable section

namespace GroupNormSwish

open Idealize.ShloMosaic Idealize.ShloMosaic.ValueIdx

/-- The group width 128 as both programs write it. -/
def width : EReal := Ideal.ofBits .f32 0x43000000#32

/-- The variance's offset ε as both programs write it. -/
def eps : EReal := Ideal.ofBits .f32 0x3727C5AC#32

/-- A group's mean. -/
def mean (g : Fin 128 → EReal) : EReal := Ideal.div (∑ l : Fin 128, g l) width

/-- A group's variance about its mean. -/
def var (g : Fin 128 → EReal) : EReal := Ideal.div (∑ l : Fin 128, (g l - mean g) * (g l - mean g)) width

/-- A group's entry, centred and divided by the group's standard deviation. -/
def normed (g : Fin 128 → EReal) (l : Fin 128) : EReal := (g l - mean g) * Ideal.rsqrt (var g + eps)

/-- x · σ(x). -/
def swish (x : EReal) : EReal := x * Ideal.logistic x

/-- What follows the normalisation: scale w, shift b, x·σ(x), weight s, x·σ(x). -/
def act (n w b s : EReal) : EReal := swish (swish (n * w + b) * s)

/-- One entry of the linear layer: a row of x against a row of W, plus the bias. -/
def lin (xr wr : Fin 2048 → EReal) (b : EReal) : EReal := (∑ k : Fin 2048, xr k * wr k) + b

/-- The lane of a channel inside its group. -/
def lane {C : Nat} (q : Fin C) : Fin 128 := ⟨q.val % 128, Nat.mod_lt _ (by decide)⟩

/-- The channel at lane l of the group of channel q, among 4096 channels. -/
def chan4096 (q : Fin 4096) (l : Fin 128) : Fin 4096 :=
  ⟨q.val / 128 * 128 + l.val, by have := q.isLt; have := l.isLt; omega⟩

/-- The channel at lane l of the group of channel q, among the 1024 channels of a block. -/
def chan1024 (q : Fin 1024) (l : Fin 128) : Fin 1024 :=
  ⟨q.val / 128 * 128 + l.val, by have := q.isLt; have := l.isLt; omega⟩

/-- The whole result: entry (r, q) from row r of x, the rows of W and the biases of q's group, and channel q's
    scale, shift and weight. -/
def G (x : (⟨2, ![16384, 2048]⟩ : Shape).Idx → EReal) (W : (⟨2, ![4096, 2048]⟩ : Shape).Idx → EReal)
    (b gw gb s : (⟨1, ![4096]⟩ : Shape).Idx → EReal) : (⟨2, ![16384, 4096]⟩ : Shape).Idx → EReal := fun i =>
  act (normed (fun l => lin (fun k => x (ix2 (i 0) k)) (fun k => W (ix2 (chan4096 (i 1) l) k)) (b (ix1 (chan4096 (i 1) l))))
        (lane (i 1)))
    (gw (ix1 (i 1))) (gb (ix1 (i 1))) (s (ix1 (i 1)))

/-- The logistic function spelt out with the pattern of 1.0: 1 / (1 + e^(−x)). -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

end GroupNormSwish

end
-- ==== Proof.ReferenceValue.lean ====
/-
  The reference's result, read entry by entry, is the function GroupNormSwish.G of its six arguments.

  The reference forms the whole [16384, 4096] linear output, views it as [16384, 32, 128], reduces the last axis
  twice (for the mean and for the variance), and views the normalised array as [16384, 4096] again.  Entry
  (r, g, l) of the three-axis view is entry (r, g·128 + l) of the two-axis one, and entry (r, q) of the two-axis
  view is entry (r, q / 128, q % 128) of the three-axis one; so the group of channel q is group q / 128 of the view,
  and its lane is q % 128.  The logistic function is spelt 1 / (1 + e^(−x)) by the reference.
-/
import proofs.«136103_j3556232922008_1_alg».proof.Proof.Gen.ReferenceIdeal.Read
import proofs.«136103_j3556232922008_1_alg».proof.Proof.GroupNormSwish

noncomputable section

namespace Cert.ReferenceIdeal.RefValue

open Cert.ReferenceIdeal Cert.ReferenceIdeal.Read Idealize.ShloMosaic Idealize.ShloMosaic.ValueIdx GroupNormSwish

variable (x0 : S16384x2048.Idx → EReal) (x1 : S4096x2048.Idx → EReal) (x2 x3 x4 x5 : S4096.Idx → EReal)

/-- The linear layer's entry (r, q): row r of x against row q of W, plus b q. -/
theorem linear_apply (r : Fin 16384) (q : Fin 4096) :
    val_main_v4 (F := Ideal) x0 x1 x2 (ix2 r q) = lin (fun k => x0 (ix2 r k)) (fun k => x1 (ix2 q k)) (x2 (ix1 q)) := by
  rw [val_main_v4_apply, val_main_v1_apply, val_main_v3_apply, val_main_v2_apply]
  simp only [val_main_v0_apply]
  have el : ∀ k : Fin 2048, lidx_main_v1 (ix2 r q) k = ix2 r k := fun k =>
    funext fun a => match a with | ⟨0, _⟩ => rfl | ⟨1, _⟩ => rfl
  have er : ∀ k : Fin 2048, idx_main_v0 (ridx_main_v1 (ix2 r q) k) = ix2 q k := fun k =>
    funext fun a => match a with | ⟨0, _⟩ => rfl | ⟨1, _⟩ => rfl
  have eb : idx_main_v2 (idx_main_v3 (ix2 r q)) = ix1 q := funext fun a => match a with | ⟨0, _⟩ => rfl
  simp only [el, er, eb]
  rfl

/-- The channel at lane l of group g. -/
def chanAt (g : Fin 32) (l : Fin 128) : Fin 4096 := ⟨g.val * 128 + l.val, by have := g.isLt; have := l.isLt; omega⟩

/-- Group g of row r of the linear layer's output, lane by lane. -/
def grp (r : Fin 16384) (g : Fin 32) : Fin 128 → EReal := fun l =>
  lin (fun k => x0 (ix2 r k)) (fun k => x1 (ix2 (chanAt g l) k)) (x2 (ix1 (chanAt g l)))

/-- Entry (r, g, l) of the three-axis view is the linear output at (r, g·128 + l). -/
theorem view_apply (r : Fin 16384) (g : Fin 32) (l : Fin 128) :
    val_main_v5 (F := Ideal) x0 x1 x2 (ix3 r g l) = grp x0 x1 x2 r g l := by
  rw [val_main_v5_apply]
  have e : idx_main_v5 (ix3 r g l) = ix2 r (chanAt g l) := by
    have hr := r.isLt; have hg := g.isLt; have hl := l.isLt
    funext a; apply Fin.ext
    match a with
    | ⟨0, _⟩ => show ((r.val * 32 + g.val) * 128 + l.val) / 4096 = r.val; omega
    | ⟨1, _⟩ => show ((r.val * 32 + g.val) * 128 + l.val) % 4096 = g.val * 128 + l.val; omega
  rw [e, linear_apply]
  rfl

/-- The first reduction divided by 128 is the group's mean. -/
theorem mean_apply (r : Fin 16384) (g : Fin 32) :
    val_main_v9 (F := Ideal) x0 x1 x2 (ix3 r g (0 : Fin 1)) = mean (grp x0 x1 x2 r g) := by
  rw [val_main_v9_apply, val_main_v7_apply, val_main_v6_apply, val_main_v8_apply, val_main_cst_0_apply, val_main_cst_apply]
  have e : ∀ k : Fin 128, idx_main_v6 (idx_main_v7 (ix3 r g (0 : Fin 1))) k = ix3 r g k := fun k =>
    funext fun a => match a with | ⟨0, _⟩ => rfl | ⟨1, _⟩ => rfl | ⟨2, _⟩ => rfl
  simp only [e, view_apply, Ideal.hostDivf_def, Ideal.ofBits_def, Ideal.ofBits_zero_f32, zero_add]
  rfl

/-- An entry of the view less its group's mean (the first of the reference's two subtractions). -/
theorem centred_apply (r : Fin 16384) (g : Fin 32) (l : Fin 128) :
    val_main_v11 (F := Ideal) x0 x1 x2 (ix3 r g l) = grp x0 x1 x2 r g l - mean (grp x0 x1 x2 r g) := by
  rw [val_main_v11_apply, val_main_v10_apply, view_apply]
  have e : idx_main_v10 (ix3 r g l) = ix3 r g (0 : Fin 1) :=
    funext fun a => match a with | ⟨0, _⟩ => rfl | ⟨1, _⟩ => rfl | ⟨2, _⟩ => rfl
  rw [e, mean_apply]
  rfl

/-- The same difference as the reference forms it a second time, for the normalised entry. -/
theorem centred_apply' (r : Fin 16384) (g : Fin 32) (l : Fin 128) :
    val_main_v18 (F := Ideal) x0 x1 x2 (ix3 r g l) = grp x0 x1 x2 r g l - mean (grp x0 x1 x2 r g) := by
  rw [val_main_v18_apply, val_main_v17_apply, view_apply]
  have e : idx_main_v17 (ix3 r g l) = ix3 r g (0 : Fin 1) :=
    funext fun a => match a with | ⟨0, _⟩ => rfl | ⟨1, _⟩ => rfl | ⟨2, _⟩ => rfl
  rw [e, mean_apply]
  rfl

/-- The second reduction divided by 128 is the group's variance. -/
theorem var_apply (r : Fin 16384) (g : Fin 32) :
    val_main_v16 (F := Ideal) x0 x1 x2 (ix3 r g (0 : Fin 1)) = var (grp x0 x1 x2 r g) := by
  rw [val_main_v16_apply, val_main_v14_apply, val_main_v13_apply, val_main_v15_apply, val_main_cst_2_apply, val_main_cst_1_apply]
  have e : ∀ k : Fin 128, idx_main_v13 (idx_main_v14 (ix3 r g (0 : Fin 1))) k = ix3 r g k := fun k =>
    funext fun a => match a with | ⟨0, _⟩ => rfl | ⟨1, _⟩ => rfl | ⟨2, _⟩ => rfl
  simp only [e, val_main_v12_apply, centred_apply, Ideal.hostDivf_def, Ideal.mulf_def, Ideal.ofBits_def, Ideal.ofBits_zero_f32, zero_add]
  rfl

/-- The normalised entry of the view. -/
theorem normed_apply (r : Fin 16384) (g : Fin 32) (l : Fin 128) :
    val_main_v23 (F := Ideal) x0 x1 x2 (ix3 r g l) = normed (grp x0 x1 x2 r g) l := by
  rw [val_main_v23_apply, centred_apply', val_main_v22_apply, val_main_v21_apply, val_main_v20_apply, val_main_v19_apply,
    val_main_cst_3_apply]
  have e : idx_main_v22 (ix3 r g l) = ix3 r g (0 : Fin 1) :=
    funext fun a => match a with | ⟨0, _⟩ => rfl | ⟨1, _⟩ => rfl | ⟨2, _⟩ => rfl
  rw [e, var_apply]
  rfl

/-- The group of channel q, and the normalised entry (r, q) of the two-axis view. -/
theorem normed_flat_apply (r : Fin 16384) (q : Fin 4096) :
    val_main_v24 (F := Ideal) x0 x1 x2 (ix2 r q)
      = normed (fun l => lin (fun k => x0 (ix2 r k)) (fun k => x1 (ix2 (chan4096 q l) k)) (x2 (ix1 (chan4096 q l)))) (lane q) := by
  rw [val_main_v24_apply]
  have hq := q.isLt
  have e : idx_main_v24 (ix2 r q) = ix3 r (⟨q.val / 128, by omega⟩ : Fin 32) (lane q) := by
    have hr := r.isLt
    funext a; apply Fin.ext
    match a with
    | ⟨0, _⟩ => show (r.val * 4096 + q.val) / 4096 = r.val; omega
    | ⟨1, _⟩ => show (r.val * 4096 + q.val) / 128 % 32 = q.val / 128; omega
    | ⟨2, _⟩ => show (r.val * 4096 + q.val) % 128 = q.val % 128; omega
  rw [e, normed_apply]
  rfl

/-- THE REFERENCE'S RESULT is G of its arguments. -/
theorem result_eq : val_main_v47 (F := Ideal) x0 x1 x2 x3 x4 x5 = G x0 x1 x2 x3 x4 x5 := by
  funext i
  obtain ⟨r, q, rfl⟩ : ∃ (r : Fin 16384) (q : Fin 4096), i = ix2 r q := ⟨i 0, i 1, eq_ix2 i⟩
  have e3 : idx_main_v25 (idx_main_v26 (ix2 r q)) = ix1 q := funext fun a => match a with | ⟨0, _⟩ => rfl
  have e4 : idx_main_v28 (idx_main_v29 (ix2 r q)) = ix1 q := funext fun a => match a with | ⟨0, _⟩ => rfl
  have e5 : idx_main_v38 (idx_main_v39 (ix2 r q)) = ix1 q := funext fun a => match a with | ⟨0, _⟩ => rfl
  -- the inner x·σ(x), at the scaled and shifted normalised entry
  have h30 : val_main_v30 (F := Ideal) x0 x1 x2 x3 x4 (ix2 r q)
      = normed (fun l => lin (fun k => x0 (ix2 r k)) (fun k => x1 (ix2 (chan4096 q l) k)) (x2 (ix1 (chan4096 q l)))) (lane q)
          * x3 (ix1 q) + x4 (ix1 q) := by
    rw [val_main_v30_apply, val_main_v27_apply, normed_flat_apply, val_main_v26_apply, val_main_v25_apply, val_main_v29_apply,
      val_main_v28_apply, e3, e4]
    rfl
  have h37 : val_main_v37 (F := Ideal) x0 x1 x2 x3 x4 (ix2 r q) = swish (val_main_v30 (F := Ideal) x0 x1 x2 x3 x4 (ix2 r q)) := by
    rw [val_main_v37_apply, val_main_v36_apply, val_main_v35_apply, val_main_cst_5_apply, val_main_v34_apply, val_main_v33_apply,
      val_main_cst_4_apply, val_main_v32_apply, val_main_v31_apply]
    simp only [Ideal.hostDivf_def, Ideal.ofBits_def, Ideal.addf_def, Ideal.hostUnary_exp_def, Ideal.hostNegf_def, Ideal.negf_def,
      Ideal.mulf_def, logistic_spelt]
    rfl
  have h40 : val_main_v40 (F := Ideal) x0 x1 x2 x3 x4 x5 (ix2 r q)
      = swish (val_main_v30 (F := Ideal) x0 x1 x2 x3 x4 (ix2 r q)) * x5 (ix1 q) := by
    rw [val_main_v40_apply, h37, val_main_v39_apply, val_main_v38_apply, e5]
    rfl
  have h47 : val_main_v47 (F := Ideal) x0 x1 x2 x3 x4 x5 (ix2 r q) = swish (val_main_v40 (F := Ideal) x0 x1 x2 x3 x4 x5 (ix2 r q)) := by
    rw [val_main_v47_apply, val_main_v46_apply, val_main_v45_apply, val_main_cst_7_apply, val_main_v44_apply, val_main_v43_apply,
      val_main_cst_6_apply, val_main_v42_apply, val_main_v41_apply]
    simp only [Ideal.hostDivf_def, Ideal.ofBits_def, Ideal.addf_def, Ideal.hostUnary_exp_def, Ideal.hostNegf_def, Ideal.negf_def,
      Ideal.mulf_def, logistic_spelt]
    rfl
  rw [h47, h40, h30]
  rfl

end Cert.ReferenceIdeal.RefValue

end
-- ==== Proof.BodyLinear.lean ====
/-
  The block's linear output, entry by entry.

  At one grid point the body holds a block of 256 rows of x, a block of 1024 rows of W and the 1024 biases of
  those rows' channels.  Its matrix product contracts axis 1 of the x block against axis 1 of the W block
  (x · Wᵀ), into a zero accumulator, so entry (p, q) is Σ_k x(p, k) · W(q, k); the change of float format
  before the product is the identity on the extended reals.  The bias row, broadcast down the 256 rows, adds
  b(q).
-/
import proofs.«136103_j3556232922008_1_alg».proof.Proof.Gen.KernelIdeal.Skeleton
import proofs.«136103_j3556232922008_1_alg».proof.Proof.GroupNormSwish
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx GroupNormSwish

/-- The left operand's axis 0 is its one free axis: it reads the result's coordinate 0. -/
theorem lhs_axis0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide),
    dif_pos (show (0 : Fin S256x2048.rank) ∈ dot_S256x2048_S1024x2048_S256x1024_1_1_0_0_n_n.lhsNonContracting by decide)]
  rfl

/-- The left operand's axis 1 is contracted: it reads the contraction index. -/
theorem lhs_axis1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q

/-- The right operand's axis 0 is its one free axis: it reads the result's coordinate 1. -/
theorem rhs_axis0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide),
    dif_pos (show (0 : Fin S1024x2048.rank) ∈ dot_S256x2048_S1024x2048_S256x1024_1_1_0_0_n_n.rhsNonContracting by decide)]
  rfl

/-- The right operand's axis 1 is contracted: it reads the contraction index. -/
theorem rhs_axis1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The block product into the zero accumulator at (p, q): Σ_k A(p, k) · B(q, k). -/
theorem product_apply (A : FVec Ideal S256x2048 .bf16) (B : FVec Ideal S1024x2048 .bf16) (p : Fin 256) (q : Fin 1024) :
    matmul dot_S256x2048_S1024x2048_S256x1024_1_1_0_0_n_n none A B (constant S256x1024 .f32 0x00000000#32) (ix2 p q)
      = ∑ k : Fin 2048, A (ix2 p k) * B (ix2 q k) := by
  simp only [matmul]
  rw [Ideal.matmul_constant_zero_apply,
    ← Equiv.sum_comp (ValueIdx.contrEquiv1 dot_S256x2048_S1024x2048_S256x1024_1_1_0_0_n_n 2048 rfl rfl).symm]
  refine Finset.sum_congr rfl fun k _ => ?_
  have hk := ValueIdx.contrEquiv1_symm_val dot_S256x2048_S1024x2048_S256x1024_1_1_0_0_n_n 2048 rfl rfl k
  have el : dot_S256x2048_S1024x2048_S256x1024_1_1_0_0_n_n.lhsIdx (ix2 p q)
      ((ValueIdx.contrEquiv1 dot_S256x2048_S1024x2048_S256x1024_1_1_0_0_n_n 2048 rfl rfl).symm k) = ix2 p k :=
    funext fun a => Fin.ext (by
      match a with
      | ⟨0, _⟩ => exact lhs_axis0 _ _
      | ⟨1, _⟩ => exact (lhs_axis1 _ _).trans hk)
  have er : dot_S256x2048_S1024x2048_S256x1024_1_1_0_0_n_n.rhsIdx (ix2 p q)
      ((ValueIdx.contrEquiv1 dot_S256x2048_S1024x2048_S256x1024_1_1_0_0_n_n 2048 rfl rfl).symm k) = ix2 q k :=
    funext fun a => Fin.ext (by
      match a with
      | ⟨0, _⟩ => exact rhs_axis0 _ _
      | ⟨1, _⟩ => exact (rhs_axis1 _ _).trans hk)
  rw [el, er]

/-- A [1, 1024] row broadcast down 256 rows, at (p, q), is the row at q. -/
theorem row_apply (v : Vec Ideal S1x1024 .f32) (p : Fin 256) (q : Fin 1024) :
    broadcastTo S256x1024 (shapeCast S1x1024 v shapeCasts_S1x1024_S1x1024) broadcasts_S1x1024_S256x1024 (ix2 p q)
      = v (ix2 (0 : Fin 1) q) := by
  rw [shapeCast_self]
  exact broadcastTo_apply v broadcasts_S1x1024_S256x1024 (ix2 p q) (ix2 (0 : Fin 1) q) (fun a => match a with
    | ⟨0, _⟩ => by show 0 = (if (1 : Nat) = 1 then 0 else p.val); rw [if_pos rfl]
    | ⟨1, _⟩ => by show q.val = (if (1024 : Nat) = 1 then 0 else q.val); rw [if_neg (by decide)])

/-- The block's linear output: the product of the two blocks plus the bias row. -/
def linBlock (P0 : Vec Ideal S256x2048 .f32) (P1 : Vec Ideal S1024x2048 .f32) (P2 : Vec Ideal S1x1024 .f32) : FVec Ideal S256x1024 .f32 :=
  addf (matmul dot_S256x2048_S1024x2048_S256x1024_1_1_0_0_n_n none (truncf .bf16 P0 bitsLt_bf16_f32) (truncf .bf16 P1 bitsLt_bf16_f32)
      (constant S256x1024 .f32 0x00000000#32))
    (broadcastTo S256x1024 (shapeCast S1x1024 P2 shapeCasts_S1x1024_S1x1024) broadcasts_S1x1024_S256x1024)

/-- Entry (p, q) of the block's linear output. -/
theorem linBlock_apply (P0 : Vec Ideal S256x2048 .f32) (P1 : Vec Ideal S1024x2048 .f32) (P2 : Vec Ideal S1x1024 .f32)
    (p : Fin 256) (q : Fin 1024) :
    linBlock P0 P1 P2 (ix2 p q) = lin (fun k => P0 (ix2 p k)) (fun k => P1 (ix2 q k)) (P2 (ix2 (0 : Fin 1) q)) := by
  unfold linBlock
  rw [addf_apply, product_apply, row_apply]
  rfl

end Cert.KernelIdeal.Body

end
-- ==== Proof.BodyNorm.lean ====
/-
  The block's group normalisation and first x·σ(x), entry by entry.

  The body views its [256, 1024] linear output as [256, 8, 128]: eight groups of 128 lanes per row, entry
  (p, g, l) being entry (p, g·128 + l).  It sums each group over the lanes and divides by 128 (a [256, 8, 1]
  column), subtracts the column from every lane, sums the squares of the differences and divides by 128 again,
  adds ε, takes the reciprocal square root, multiplies every lane's difference by it, and views the result as
  [256, 1024] again: entry (p, q) is entry (p, q / 128, q % 128) of the three-axis array.  Then the per-channel
  scale and shift rows and x·σ(x).
-/
import proofs.«136103_j3556232922008_1_alg».proof.Proof.BodyLinear

noncomputable section

namespace Cert.KernelIdeal.Body

open Cert.KernelIdeal Cert.KernelIdeal.Gen Idealize.ShloMosaic Idealize.ShloMosaic.ValueIdx GroupNormSwish

/-- The channel at lane l of group g of a block's 1024 channels. -/
def chanIn (g : Fin 8) (l : Fin 128) : Fin 1024 := ⟨g.val * 128 + l.val, by have := g.isLt; have := l.isLt; omega⟩

/-- The [256, 1024] block viewed as 8 groups of 128 lanes per row. -/
def grouped (y : FVec Ideal S256x1024 .f32) : FVec Ideal S256x8x128 .f32 :=
  shapeCast S256x8x128 y shapeCasts_S256x1024_S256x8x128

theorem grouped_apply (y : FVec Ideal S256x1024 .f32) (p : Fin 256) (g : Fin 8) (l : Fin 128) :
    grouped y (ix3 p g l) = y (ix2 p (chanIn g l)) := by
  have hp := p.isLt; have hg := g.isLt; have hl := l.isLt
  exact shapeCast_apply y shapeCasts_S256x1024_S256x8x128 (ix3 p g l) (ix2 p (chanIn g l))
    (by rewrite [Shape.rowMajor_val_two, Shape.rowMajor_val_three]
        show p.val * 1024 + (g.val * 128 + l.val) = (p.val * 8 + g.val) * 128 + l.val; omega)

/-- The [256, 8, 128] array viewed as [256, 1024] again. -/
def flat (v : FVec Ideal S256x8x128 .f32) : FVec Ideal S256x1024 .f32 :=
  shapeCast S256x1024 v shapeCasts_S256x8x128_S256x1024

/-- The group of a block's channel q. -/
def groupOf (q : Fin 1024) : Fin 8 := ⟨q.val / 128, by have := q.isLt; omega⟩

theorem flat_apply (v : FVec Ideal S256x8x128 .f32) (p : Fin 256) (q : Fin 1024) :
    flat v (ix2 p q) = v (ix3 p (groupOf q) (lane q)) := by
  have hp := p.isLt; have hq := q.isLt
  exact shapeCast_apply v shapeCasts_S256x8x128_S256x1024 (ix2 p q) (ix3 p (groupOf q) (lane q))
    (by rewrite [Shape.rowMajor_val_three, Shape.rowMajor_val_two]
        show (p.val * 8 + q.val / 128) * 128 + q.val % 128 = p.val * 1024 + q.val; omega)

/-- A [256, 8] array as a [256, 8, 1] column. -/
theorem column_apply (u : FVec Ideal S256x8 .f32) (p : Fin 256) (g : Fin 8) :
    shapeCast S256x8x1 u shapeCasts_S256x8_S256x8x1 (ix3 p g (0 : Fin 1)) = u (ix2 p g) := by
  exact shapeCast_apply u shapeCasts_S256x8_S256x8x1 (ix3 p g (0 : Fin 1)) (ix2 p g)
    (by rewrite [Shape.rowMajor_val_two, Shape.rowMajor_val_three]
        show p.val * 8 + g.val = (p.val * 8 + g.val) * 1 + 0; omega)

/-- A [256, 8, 1] column broadcast along the 128 lanes. -/
theorem lanes_apply (col : FVec Ideal S256x8x1 .f32) (p : Fin 256) (g : Fin 8) (l : Fin 128) :
    broadcastTo S256x8x128 col broadcasts_S256x8x1_S256x8x128 (ix3 p g l) = col (ix3 p g (0 : Fin 1)) :=
  broadcastTo_apply col broadcasts_S256x8x1_S256x8x128 (ix3 p g l) (ix3 p g (0 : Fin 1)) (fun a => match a with
    | ⟨0, _⟩ => by show p.val = (if (256 : Nat) = 1 then 0 else p.val); rw [if_neg (by decide)]
    | ⟨1, _⟩ => by show g.val = (if (8 : Nat) = 1 then 0 else g.val); rw [if_neg (by decide)]
    | ⟨2, _⟩ => by show 0 = (if (1 : Nat) = 1 then 0 else l.val); rw [if_pos rfl])

/-- The sum over the lanes of a group. -/
theorem laneSum_apply (v : FVec Ideal S256x8x128 .f32) (p : Fin 256) (g : Fin 8) :
    multiReduction .add [2] S256x8 v 0x00000000#32 reduces_S256x8x128_S256x8 (.inl rfl) rfl (ix2 p g)
      = ∑ l : Fin 128, v (ix3 p g l) := by
  refine (Ideal.multiReduction_add_single v 0x00000000#32 reduces_S256x8x128_S256x8 (.inl rfl) rfl (ix2 p g)).trans ?_
  exact Finset.sum_congr rfl fun l _ => congrArg v (funext fun a => Fin.ext (by
    match a with
    | ⟨0, _⟩ => rfl
    | ⟨1, _⟩ => rfl
    | ⟨2, _⟩ => rfl))

/-- The lane sum divided by 128, as a column: what the body computes twice. -/
def colMean (v : FVec Ideal S256x8x128 .f32) : FVec Ideal S256x8x1 .f32 :=
  divf (shapeCast S256x8x1 (multiReduction .add [2] S256x8 v 0x00000000#32 reduces_S256x8x128_S256x8 (.inl rfl) rfl) shapeCasts_S256x8_S256x8x1)
    (broadcast S256x8x1 (Scalar.ofBits .f32 0x43000000#32))

theorem colMean_apply (v : FVec Ideal S256x8x128 .f32) (p : Fin 256) (g : Fin 8) :
    colMean v (ix3 p g (0 : Fin 1)) = Ideal.div (∑ l : Fin 128, v (ix3 p g l)) width := by
  unfold colMean
  rw [divf_apply, column_apply, laneSum_apply]
  rfl

/-- Every lane less its group's mean. -/
def centredBlock (v : FVec Ideal S256x8x128 .f32) : FVec Ideal S256x8x128 .f32 :=
  subf v (broadcastTo S256x8x128 (colMean v) broadcasts_S256x8x1_S256x8x128)

theorem centredBlock_apply (v : FVec Ideal S256x8x128 .f32) (p : Fin 256) (g : Fin 8) (l : Fin 128) :
    centredBlock v (ix3 p g l) = v (ix3 p g l) - mean (fun l => v (ix3 p g l)) := by
  unfold centredBlock
  rw [subf_apply, lanes_apply, colMean_apply]
  rfl

/-- Every lane's difference times the reciprocal square root of its group's variance plus ε. -/
def normedBlock (v : FVec Ideal S256x8x128 .f32) : FVec Ideal S256x8x128 .f32 :=
  mulf (centredBlock v)
    (broadcastTo S256x8x128
      (rsqrt (addf (colMean (mulf (centredBlock v) (centredBlock v))) (broadcast S256x8x1 (Scalar.ofBits .f32 0x3727C5AC#32))))
      broadcasts_S256x8x1_S256x8x128)

theorem normedBlock_apply (v : FVec Ideal S256x8x128 .f32) (p : Fin 256) (g : Fin 8) (l : Fin 128) :
    normedBlock v (ix3 p g l) = normed (fun l => v (ix3 p g l)) l := by
  unfold normedBlock
  rw [mulf_apply, lanes_apply, centredBlock_apply]
  show _ * Ideal.rsqrt (colMean (mulf (centredBlock v) (centredBlock v)) (ix3 p g (0 : Fin 1)) + eps) = _
  rw [colMean_apply]
  simp only [mulf_apply, centredBlock_apply]
  rfl

/-- The body's first payload is the linear block, normalised group by group, scaled, shifted, and x·σ(x). -/
theorem pay2_eq (P0 : Vec Ideal S256x2048 .f32) (P1 : Vec Ideal S1024x2048 .f32) (P2 P3 P4 : Vec Ideal S1x1024 .f32) :
    k0_pay2 (F := Ideal) P0 P1 P2 P3 P4
      = mulf (addf (mulf (flat (normedBlock (grouped (linBlock P0 P1 P2))))
            (broadcastTo S256x1024 (shapeCast S1x1024 P3 shapeCasts_S1x1024_S1x1024) broadcasts_S1x1024_S256x1024))
          (broadcastTo S256x1024 (shapeCast S1x1024 P4 shapeCasts_S1x1024_S1x1024) broadcasts_S1x1024_S256x1024))
        (logistic (addf (mulf (flat (normedBlock (grouped (linBlock P0 P1 P2))))
            (broadcastTo S256x1024 (shapeCast S1x1024 P3 shapeCasts_S1x1024_S1x1024) broadcasts_S1x1024_S256x1024))
          (broadcastTo S256x1024 (shapeCast S1x1024 P4 shapeCasts_S1x1024_S1x1024) broadcasts_S1x1024_S256x1024))) := rfl

/-- x·σ(x) of an array, at an entry. -/
theorem swish_apply (z : FVec Ideal S256x1024 .f32) (i : S256x1024.Idx) : mulf z (logistic z) i = swish (z i) := rfl

/-- Group g of row p of the block's linear output, lane by lane. -/
def grpIn (P0 : Vec Ideal S256x2048 .f32) (P1 : Vec Ideal S1024x2048 .f32) (P2 : Vec Ideal S1x1024 .f32) (p : Fin 256) (g : Fin 8) :
    Fin 128 → EReal := fun l =>
  lin (fun k => P0 (ix2 p k)) (fun k => P1 (ix2 (chanIn g l) k)) (P2 (ix2 (0 : Fin 1) (chanIn g l)))

/-- Entry (p, q) of the body's first payload. -/
theorem pay2_apply (P0 : Vec Ideal S256x2048 .f32) (P1 : Vec Ideal S1024x2048 .f32) (P2 P3 P4 : Vec Ideal S1x1024 .f32)
    (p : Fin 256) (q : Fin 1024) :
    k0_pay2 (F := Ideal) P0 P1 P2 P3 P4 (ix2 p q)
      = swish (normed (grpIn P0 P1 P2 p (groupOf q)) (lane q) * P3 (ix2 (0 : Fin 1) q) + P4 (ix2 (0 : Fin 1) q)) := by
  rw [pay2_eq]
  have hn : flat (normedBlock (grouped (linBlock P0 P1 P2))) (ix2 p q) = normed (grpIn P0 P1 P2 p (groupOf q)) (lane q) := by
    rw [flat_apply, normedBlock_apply]
    simp only [grouped_apply, linBlock_apply]
    rfl
  rw [swish_apply, addf_apply, mulf_apply, hn, row_apply, row_apply]

end Cert.KernelIdeal.Body

end
-- ==== Proof.BlockValue.lean ====
/-
  From the blocks to the whole result array.

  Grid point t = (j, i) works on rows i·256 … i·256 + 255 of x, on channels j·1024 … j·1024 + 1023 (the rows of W
  and the entries of the four per-channel vectors, which the program first views as [1, 4096] rows), and writes
  block (i, j) of the [16384, 4096] result.  A block of 1024 channels starting at a multiple of 1024 holds whole
  groups of 128, so the group of channel q inside the block is the group of channel j·1024 + q in the row, at the
  same lane: what the body leaves in the block is the restriction of GroupNormSwish.G to the block.  The 64 × 4
  blocks tile the array, so after the run the array is G of the arguments.
-/
import proofs.«136103_j3556232922008_1_alg».proof.Proof.Gen.KernelIdeal.Value
import proofs.«136103_j3556232922008_1_alg».proof.Proof.BodyNorm
import Idealize.ShloMosaic.Lib.StableHlo.Run

noncomputable section

namespace Cert.KernelIdeal.RefValue

open Cert.KernelIdeal Cert.KernelIdeal.Gen Cert.KernelIdeal.Value Cert.KernelIdeal.Body
open Idealize.ShloMosaic Idealize.ShloMosaic.TcCoe Idealize.SL.Sem Idealize.ShloMosaic.ValueIdx GroupNormSwish
open Idealize.ShloMosaic.Pipeline (Dat)

/-! ## One block, over variables -/

/-- Row p of block-row i, in the whole array. -/
def rowOf (i : Nat) (hi : i < 64) (p : Fin 256) : Fin 16384 := ⟨i * 256 + p.val, by have := p.isLt; omega⟩

/-- Channel q of block-column j, among all 4096. -/
def chanOf (j : Nat) (hj : j < 4) (q : Fin 1024) : Fin 4096 := ⟨j * 1024 + q.val, by have := q.isLt; omega⟩

/-- What the body's one store leaves at entry y of the block, when its six loaded blocks are block (i, ·) of x,
    block (j, ·) of W and the j-th stretches of the four channel vectors: G at row i·256 + y₀, channel j·1024 + y₁. -/
theorem block_apply (P0 : Vec Ideal S256x2048 .f32) (P1 : Vec Ideal S1024x2048 .f32) (P2 P3 P4 P5 : Vec Ideal S1x1024 .f32)
    (A0 : S16384x2048.Idx → EReal) (A1 : S4096x2048.Idx → EReal) (b gw gb s : S4096.Idx → EReal)
    (i j : Nat) (hi : i < 64) (hj : j < 4)
    (h0 : ∀ (p : Fin 256) (k : Fin 2048), P0 (ix2 p k) = A0 (ix2 (rowOf i hi p) k))
    (h1 : ∀ (q : Fin 1024) (k : Fin 2048), P1 (ix2 q k) = A1 (ix2 (chanOf j hj q) k))
    (h2 : ∀ q : Fin 1024, P2 (ix2 (0 : Fin 1) q) = b (ix1 (chanOf j hj q)))
    (h3 : ∀ q : Fin 1024, P3 (ix2 (0 : Fin 1) q) = gw (ix1 (chanOf j hj q)))
    (h4 : ∀ q : Fin 1024, P4 (ix2 (0 : Fin 1) q) = gb (ix1 (chanOf j hj q)))
    (h5 : ∀ q : Fin 1024, P5 (ix2 (0 : Fin 1) q) = s (ix1 (chanOf j hj q)))
    (y : S256x1024.Idx) :
    View.canon ([⟨r0_3, k0_pay1 (F := Ideal) (k0_pay2 P0 P1 P2 P3 P4) (k0_pay3 P5)⟩] : List (View.Piece (Elt Ideal) S256x1024 .f32)) y
      = G A0 A1 b gw gb s (ix2 (rowOf i hi (y 0)) (chanOf j hj (y 1))) := by
  obtain ⟨p, q, rfl⟩ : ∃ (p : Fin 256) (q : Fin 1024), y = ix2 p q := ⟨y 0, y 1, eq_ix2 y⟩
  show _ = G A0 A1 b gw gb s (ix2 (rowOf i hi p) (chanOf j hj q))
  rw [canon6_eq]
  have e0 : ix6_0 (ix2 p q) = ix2 p q := funext fun a => match a with | ⟨0, _⟩ => rfl | ⟨1, _⟩ => rfl
  have e1 : ix6_1 (ix2 p q) = ix2 (0 : Fin 1) q := funext fun a => match a with | ⟨0, _⟩ => rfl | ⟨1, _⟩ => rfl
  have e2 : ix6_2 (ix2 p q) = ix2 p q := funext fun a => match a with | ⟨0, _⟩ => rfl | ⟨1, _⟩ => rfl
  have e3 : ix6_3 (ix2 p q) = ix2 (0 : Fin 1) q := funext fun a => match a with | ⟨0, _⟩ => rfl | ⟨1, _⟩ => rfl
  show FloatOps.mulf (FloatOps.mulf (k0_pay2 P0 P1 P2 P3 P4 (ix6_0 (ix2 p q))) (P5 (ix6_1 (ix2 p q))))
      (FloatOps.logistic (FloatOps.mulf (k0_pay2 P0 P1 P2 P3 P4 (ix6_2 (ix2 p q))) (P5 (ix6_3 (ix2 p q))))) = _
  rw [e0, e1, e2, e3, pay2_apply, h3, h4, h5]
  -- the channel's group inside the block is its group in the row, at the same lane
  have hq := q.isLt
  have hg : grpIn P0 P1 P2 p (groupOf q) = fun l => lin (fun k => A0 (ix2 (rowOf i hi p) k))
      (fun k => A1 (ix2 (chan4096 (chanOf j hj q) l) k)) (b (ix1 (chan4096 (chanOf j hj q) l))) := by
    funext l
    have hl := l.isLt
    have hc : chanOf j hj (chanIn (groupOf q) l) = chan4096 (chanOf j hj q) l :=
      Fin.ext (by show j * 1024 + (q.val / 128 * 128 + l.val) = (j * 1024 + q.val) / 128 * 128 + l.val; omega)
    unfold grpIn
    simp only [h0, h1, h2, hc]
  have hl : lane q = lane (chanOf j hj q) := Fin.ext (by show q.val % 128 = (j * 1024 + q.val) % 128; omega)
  rw [hg, hl]
  rfl

/-! ## The arrays as the region finds them -/

variable (m : (ℓ : Loc nD τ sig) → Buf (Elt Ideal) ℓ) (ρ : Dev nD → PrngReg)

/-- A [4096] vector viewed as a [1, 4096] row, at (0, q). -/
theorem rowView_apply (a : S4096.Idx → EReal) (q : Fin 4096) :
    shapeCast S1x4096 a shapeCasts_S4096_S1x4096 (ix2 (0 : Fin 1) q) = a (ix1 q) :=
  shapeCast_apply a shapeCasts_S4096_S1x4096 (ix2 (0 : Fin 1) q) (ix1 q)
    (by rewrite [Shape.rowMajor_val_one, Shape.rowMajor_val_two]; show q.val = 0 * 4096 + q.val; omega)

/-- The four row views the host part of the program writes before the region: of b, of the scale, of the shift and
    of the weight. -/
theorem biasRow_apply (c : Dev nD) (q : Fin 4096) :
    V m c main_v0 (ix2 (0 : Fin 1) q) = m ((c : Thread nD τ).loc main_arg2) (ix1 q) := by
  have e : (V m c main_v0 : S1x4096.Idx → EReal)
      = shapeCast S1x4096 (m ((c : Thread nD τ).loc main_arg2)) shapeCasts_S4096_S1x4096 := by
    dsimp only [Gen.V, Gen.hostOps0]; after_results; rfl
  rw [e]; exact rowView_apply _ q
theorem scaleRow_apply (c : Dev nD) (q : Fin 4096) :
    V m c main_v1 (ix2 (0 : Fin 1) q) = m ((c : Thread nD τ).loc main_arg3) (ix1 q) := by
  have e : (V m c main_v1 : S1x4096.Idx → EReal)
      = shapeCast S1x4096 (m ((c : Thread nD τ).loc main_arg3)) shapeCasts_S4096_S1x4096 := by
    dsimp only [Gen.V, Gen.hostOps0]; after_results; rfl
  rw [e]; exact rowView_apply _ q
theorem shiftRow_apply (c : Dev nD) (q : Fin 4096) :
    V m c main_v2 (ix2 (0 : Fin 1) q) = m ((c : Thread nD τ).loc main_arg4) (ix1 q) := by
  have e : (V m c main_v2 : S1x4096.Idx → EReal)
      = shapeCast S1x4096 (m ((c : Thread nD τ).loc main_arg4)) shapeCasts_S4096_S1x4096 := by
    dsimp only [Gen.V, Gen.hostOps0]; after_results; rfl
  rw [e]; exact rowView_apply _ q
theorem weightRow_apply (c : Dev nD) (q : Fin 4096) :
    V m c main_v3 (ix2 (0 : Fin 1) q) = m ((c : Thread nD τ).loc main_arg5) (ix1 q) := by
  have e : (V m c main_v3 : S1x4096.Idx → EReal)
      = shapeCast S1x4096 (m ((c : Thread nD τ).loc main_arg5)) shapeCasts_S4096_S1x4096 := by
    dsimp only [Gen.V, Gen.hostOps0]; after_results; rfl
  rw [e]; exact rowView_apply _ q

/-! ## The blocks of a grid point -/

/-- The printed index maps over the 256 grid points: x's block follows the result's block-row, W's and the four
    rows' blocks follow its block-column, and the result's block indices stay inside 64 × 4. -/
theorem idx_facts : ∀ t : Fin cfg0.N,
      win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = win0_6.index t (1 : Fin 2)
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) < 64 ∧ win0_6.index t (1 : Fin 2) < 4 :=
  (by decide +kernel : ∀ t : Fin grid0.N, _)

/-- Every one of the 64 × 4 blocks of the result is some grid point's. -/
theorem idx_onto : ∀ (a : Fin 64) (b : Fin 4), ∃ t : Fin cfg0.N, win0_6.index t = ![a.val, b.val] :=
  (by decide +kernel : ∀ (a : Fin 64) (b : Fin 4), ∃ t : Fin grid0.N, win0_6.index t = ![a.val, b.val])

theorem hz : (![0, 0] : Fin 2 → Nat) = fun _ => 0 := funext fun a => by fin_cases a <;> rfl

/-- The result array as a function of the arguments as launched. -/
abbrev result (c : Dev nD) : S16384x4096.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT GRID POINT t WRITES BACK is block t of the result function. -/
theorem flushed_eq (c : Dev nD) (t : Fin cfg0.N) :
    (dats m 0 c).flushed 6 t = ((cfg0.win 6).blk t).view.read (Elt Ideal) (result m c) := by
  rw [flushed6]
  unfold out0_6
  simp only [View.ld_unit_zero (S := S256x2048) hz, View.ld_unit_zero (S := S1024x2048) hz, View.ld_unit_zero (S := S1x1024) hz]
  obtain ⟨e00, e01, e10, e11, e20, e21, e30, e31, e40, e41, e50, e51, hi, hj⟩ := idx_facts t
  funext y
  have hy0 : (y 0).val < 256 := (y 0).isLt
  have hy1 : (y 1).val < 1024 := (y 1).isLt
  show View.canon ([⟨r0_3, k0_pay1 (F := Ideal) (k0_pay2 (iblk m c 0 t) (iblk m c 1 t) (iblk m c 2 t) (iblk m c 3 t) (iblk m c 4 t))
      (k0_pay3 (iblk m c 5 t))⟩] : List (View.Piece (Elt Ideal) S256x1024 .f32)) y = result m c (((cfg0.win 6).blk t).view.emb y)
  refine (block_apply (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (win0_6.index t (0 : Fin 2)) (win0_6.index t (1 : Fin 2)) hi hj ?_ ?_ ?_ ?_ ?_ ?_ y).trans (congrArg (result m c) ?_)
  · intro p k
    have hp := p.isLt; have hk := k.isLt
    show V m c main_arg0 (((cfg0.win 0).blk t).view.emb (ix2 p k)) = _
    rw [V_main_arg0]
    refine congrArg _ (funext fun a => Fin.ext ?_)
    match a with
    | ⟨0, _⟩ => show win0_0.index t (0 : Fin 2) * 256 + 1 * p.val = win0_6.index t (0 : Fin 2) * 256 + p.val; omega
    | ⟨1, _⟩ => show win0_0.index t (1 : Fin 2) * 2048 + 1 * k.val = k.val; omega
  · intro q k
    have hq := q.isLt; have hk := k.isLt
    show V m c main_arg1 (((cfg0.win 1).blk t).view.emb (ix2 q k)) = _
    rw [V_main_arg1]
    refine congrArg _ (funext fun a => Fin.ext ?_)
    match a with
    | ⟨0, _⟩ => show win0_1.index t (0 : Fin 2) * 1024 + 1 * q.val = win0_6.index t (1 : Fin 2) * 1024 + q.val; omega
    | ⟨1, _⟩ => show win0_1.index t (1 : Fin 2) * 2048 + 1 * k.val = k.val; omega
  · intro q
    have hq := q.isLt
    show V m c main_v0 (((cfg0.win 2).blk t).view.emb (ix2 (0 : Fin 1) q)) = _
    have e : ((cfg0.win 2).blk t).view.emb (ix2 (0 : Fin 1) q) = ix2 (0 : Fin 1) (chanOf (win0_6.index t (1 : Fin 2)) hj q) := by
      funext a; apply Fin.ext
      match a with
      | ⟨0, _⟩ => show win0_2.index t (0 : Fin 2) * 1 + 1 * 0 = 0; omega
      | ⟨1, _⟩ => show win0_2.index t (1 : Fin 2) * 1024 + 1 * q.val = win0_6.index t (1 : Fin 2) * 1024 + q.val; omega
    rw [e, biasRow_apply]
  · intro q
    have hq := q.isLt
    show V m c main_v1 (((cfg0.win 3).blk t).view.emb (ix2 (0 : Fin 1) q)) = _
    have e : ((cfg0.win 3).blk t).view.emb (ix2 (0 : Fin 1) q) = ix2 (0 : Fin 1) (chanOf (win0_6.index t (1 : Fin 2)) hj q) := by
      funext a; apply Fin.ext
      match a with
      | ⟨0, _⟩ => show win0_3.index t (0 : Fin 2) * 1 + 1 * 0 = 0; omega
      | ⟨1, _⟩ => show win0_3.index t (1 : Fin 2) * 1024 + 1 * q.val = win0_6.index t (1 : Fin 2) * 1024 + q.val; omega
    rw [e, scaleRow_apply]
  · intro q
    have hq := q.isLt
    show V m c main_v2 (((cfg0.win 4).blk t).view.emb (ix2 (0 : Fin 1) q)) = _
    have e : ((cfg0.win 4).blk t).view.emb (ix2 (0 : Fin 1) q) = ix2 (0 : Fin 1) (chanOf (win0_6.index t (1 : Fin 2)) hj q) := by
      funext a; apply Fin.ext
      match a with
      | ⟨0, _⟩ => show win0_4.index t (0 : Fin 2) * 1 + 1 * 0 = 0; omega
      | ⟨1, _⟩ => show win0_4.index t (1 : Fin 2) * 1024 + 1 * q.val = win0_6.index t (1 : Fin 2) * 1024 + q.val; omega
    rw [e, shiftRow_apply]
  · intro q
    have hq := q.isLt
    show V m c main_v3 (((cfg0.win 5).blk t).view.emb (ix2 (0 : Fin 1) q)) = _
    have e : ((cfg0.win 5).blk t).view.emb (ix2 (0 : Fin 1) q) = ix2 (0 : Fin 1) (chanOf (win0_6.index t (1 : Fin 2)) hj q) := by
      funext a; apply Fin.ext
      match a with
      | ⟨0, _⟩ => show win0_5.index t (0 : Fin 2) * 1 + 1 * 0 = 0; omega
      | ⟨1, _⟩ => show win0_5.index t (1 : Fin 2) * 1024 + 1 * q.val = win0_6.index t (1 : Fin 2) * 1024 + q.val; omega
    rw [e, weightRow_apply]
  · funext a; apply Fin.ext
    match a with
    | ⟨0, _⟩ => show win0_6.index t (0 : Fin 2) * 256 + (y 0).val = win0_6.index t (0 : Fin 2) * 256 + 1 * (y 0).val; omega
    | ⟨1, _⟩ => show win0_6.index t (1 : Fin 2) * 1024 + (y 1).val = win0_6.index t (1 : Fin 2) * 1024 + 1 * (y 1).val; omega

/-! ## The blocks tile the array -/

/-- An entry of the array is in grid point t's block iff each coordinate is in the block's range on its axis. -/
theorem mem_blk (t : Fin cfg0.N) (i : S16384x4096.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v4).slice (win0_6.rect t)).set ↔ _
  rw [View.set_slice_whole, Rect.mem_set_unit]
  exact Iff.rfl

/-- Entry (r, q) lies in block (r / 256, q / 1024). -/
theorem cover (i : S16384x4096.Idx) :
    ∃ t : Fin cfg0.N, (cfg0.win 6).flush t = true ∧ i ∈ ((cfg0.win 6).blk t).view.set := by
  have hi0 : (i 0).val < 16384 := (i 0).isLt
  have hi1 : (i 1).val < 4096 := (i 1).isLt
  obtain ⟨t, ht⟩ := idx_onto ⟨(i 0).val / 256, by omega⟩ ⟨(i 1).val / 1024, by omega⟩
  have q0 : win0_6.index t (0 : Fin 2) = (i 0).val / 256 := congrFun ht 0
  have q1 : win0_6.index t (1 : Fin 2) = (i 1).val / 1024 := congrFun ht 1
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- THE ARRAY after the run is the result function of the arguments. -/
theorem final (c : Dev nD) : (dats m 0 c).arrAt 6 cfg0.N = result m c :=
  (dats m 0 c).arrAt_eq_of_cover 6 (result m c) (fun t _ => flushed_eq m c t) cover

/-- The kernel's run: every weakly fair execution terminates with the result array at G of the arguments, the
    arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.RefValue

end
-- ==== Proof.lean ====
/-
  A fused linear layer, group normalisation and two x·σ(x) activations, against its plain formulation.

  Both programs compute, for x of shape [16384, 2048], W of shape [4096, 2048] and four per-channel vectors
  b, w, c, s of length 4096, the array
      y(r, q)   = Σ_k x(r, k) · W(q, k) + b(q),
      n(r, q)   = (y(r, q) − mean) · rsqrt (var + ε)   with mean and var those of the 128 channels of q's group in row r,
      out(r, q) = f (f (n(r, q) · w(q) + c(q)) · s(q)),   f(z) = z · σ(z).
  The kernel works block by block (256 rows by 1024 channels, whole groups of 128 channels inside a block) and
  spells σ as one operation; the reference works on whole arrays and spells σ as 1 / (1 + e^(−z)).  On the extended
  reals the two are the same function, operation for operation: the sums are sums over the same index sets, both
  divisions are by the same constant, the same ε is added, and σ is by definition 1 / (1 + e^(−z)).  No algebraic law
  beyond reindexing sums is used, so the precondition is never opened.

  The three frames are the generated ones (the reference's is its generated run with the result dropped); the ideal
  pass rewrote nothing, so the kernel's idealization claim is trivial.  The value claim sets the kernel's run
  (Proof/BlockValue.lean: the result array is GroupNormSwish.G of the arguments) beside the reference's
  (Proof/ReferenceValue.lean: its result term is the same G), from memories that agree on the arguments.
-/
import proofs.«136103_j3556232922008_1_alg».proof.Defs
import proofs.«136103_j3556232922008_1_alg».proof.Proof.Gen.Kernel
import proofs.«136103_j3556232922008_1_alg».proof.Proof.Gen.Kernel.Skeleton
import proofs.«136103_j3556232922008_1_alg».proof.Proof.Gen.Kernel.Launch
import proofs.«136103_j3556232922008_1_alg».proof.Proof.Gen.Kernel.Points
import proofs.«136103_j3556232922008_1_alg».proof.Proof.Gen.Kernel.Frame
import proofs.«136103_j3556232922008_1_alg».proof.Proof.Gen.KernelIdeal
import proofs.«136103_j3556232922008_1_alg».proof.Proof.Gen.KernelIdeal.Skeleton
import proofs.«136103_j3556232922008_1_alg».proof.Proof.Gen.KernelIdeal.Launch
import proofs.«136103_j3556232922008_1_alg».proof.Proof.Gen.KernelIdeal.Points
import proofs.«136103_j3556232922008_1_alg».proof.Proof.Gen.KernelIdeal.Frame
import proofs.«136103_j3556232922008_1_alg».proof.Proof.Gen.ReferenceIdeal
import proofs.«136103_j3556232922008_1_alg».proof.Proof.Gen.KernelIdeal.Value
import proofs.«136103_j3556232922008_1_alg».proof.Proof.Gen.ReferenceIdeal.Run
import proofs.«136103_j3556232922008_1_alg».proof.Proof.Gen.ReferenceIdeal.Read
import proofs.«136103_j3556232922008_1_alg».proof.Proof.Gen.Pre_finite_inputs
import proofs.«136103_j3556232922008_1_alg».proof.Proof.ReferenceValue
import proofs.«136103_j3556232922008_1_alg».proof.Proof.BlockValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at G of the arguments. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
